-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16 : Shape := ⟨1, ![16]⟩
abbrev S20x4194304 : Shape := ⟨2, ![20, 4194304]⟩
abbrev S20x2048 : Shape := ⟨2, ![20, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S20x4194304 : S_.BroadcastsInDim S20x4194304 (![] : Fin 0 → Fin S20x4194304.rank)
  reducesTo_S20x4194304_S_d0_1 : S20x4194304.ReducesTo [0, 1] S_
  bcast_S_S20x2048 : S_.BroadcastsInDim S20x2048 (![] : Fin 0 → Fin S20x2048.rank)
  reducesTo_S20x2048_S_d0_1 : S20x2048.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v15 : IVec S16 1) (main_c_5 : IVec S_ 32) : IVec S_ 1 :=
  let main_v16 : IVec S16 32 := broadcastInDim S16 ![] bcast_S_S16 main_c_5
  let main_v17 : IVec S16 1 := cmpi .slt main_arg1 main_v16
  let main_v18 : IVec S16 1 := andi main_v15 main_v17
  let main_c_6 : IVec S_ 1 := constantI S_ 1 1#1
  let main_v19 : IVec S_ 1 := (fun x v => Host.reduce IntOp.andi x v reducesTo_S16_S_d0 h_S_) main_v18 main_c_6
  let main_v20 : IVec S_ 1 := andi main_v13 main_v19
  main_v20

def fn {F : FTy → Type} [FloatOps F] (main_arg0 : FVec F S16x2048x2048 .f32) (main_arg1 : IVec S16 32) (main_arg2 : FVec F S20x4194304 .f32) (main_arg3 : FVec F S20x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S20x4194304 .f32 := Host.absf main_arg2
  let main_cst_0 : FVec F S_ .f32 := constant S_ .f32 0x7F800000#32
  let main_v5 : FVec F S20x4194304 .f32 := broadcastInDim S20x4194304 ![] bcast_S_S20x4194304 main_cst_0
  let main_v6 : IVec S20x4194304 1 := cmpf .olt main_v4 main_v5
  let main_c_1 : IVec S_ 1 := constantI S_ 1 1#1
  let main_v7 : IVec S_ 1 := (fun x v => Host.reduce IntOp.andi x v reducesTo_S20x4194304_S_d0_1 h_S_) main_v6 main_c_1
  let main_v8 : IVec S_ 1 := andi main_v3 main_v7
  let main_v9 : FVec F S20x2048 .f32 := Host.absf main_arg3
  let main_cst_2 : FVec F S_ .f32 := constant S_ .f32 0x7F800000#32
  let main_v10 : FVec F S20x2048 .f32 := broadcastInDim S20x2048 ![] bcast_S_S20x2048 main_cst_2
  let main_v11 : IVec S20x2048 1 := cmpf .olt main_v9 main_v10
  let main_c_3 : IVec S_ 1 := constantI S_ 1 1#1
  let main_v12 : IVec S_ 1 := (fun x v => Host.reduce IntOp.andi x v reducesTo_S20x2048_S_d0_1 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg1 main_v14
  let main_c_5 : IVec S_ 32 := constantI S_ 32 20#32
  fn_part1 (F := F) main_arg1 main_v13 main_v15 main_c_5
-- ==== Kernel.lean ====
abbrev S16x2048x2048 : Shape := ⟨3, ![16, 2048, 2048]⟩
abbrev S16 : Shape := ⟨1, ![16]⟩
abbrev S20x4194304 : Shape := ⟨2, ![20, 4194304]⟩
abbrev S20x2048 : Shape := ⟨2, ![20, 2048]⟩
abbrev S20x2048x2048 : Shape := ⟨3, ![20, 2048, 2048]⟩
abbrev S20x1x2048 : Shape := ⟨3, ![20, 1, 2048]⟩
abbrev S1x512x2048 : Shape := ⟨3, ![1, 512, 2048]⟩
abbrev S1x2048x1024 : Shape := ⟨3, ![1, 2048, 1024]⟩
abbrev S1 : Shape := ⟨1, ![1]⟩
abbrev S1x1x1024 : Shape := ⟨3, ![1, 1, 1024]⟩
abbrev S1x512x1024 : Shape := ⟨3, ![1, 512, 1024]⟩
abbrev S2048x1024 : Shape := ⟨2, ![2048, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 6
  | .vmem => 9
  | .smem => 1
  | _ => 0

abbrev bufTy : (tb : Table) → Fin (tcTables nBuf tb) → BufTy
  | .hbm, ⟨0, _⟩ => ⟨S16x2048x2048, .f32⟩
  | .hbm, ⟨1, _⟩ => ⟨S20x4194304, .f32⟩
  | .hbm, ⟨2, _⟩ => ⟨S20x2048, .f32⟩
  | .hbm, ⟨3, _⟩ => ⟨S20x2048x2048, .f32⟩
  | .hbm, ⟨4, _⟩ => ⟨S20x1x2048, .f32⟩
  | .hbm, ⟨5, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .smem, ⟨0, _⟩ => ⟨S16, .i32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S20x4194304_S20x2048x2048 : S20x4194304.ShapeCasts S20x2048x2048
  shapeCasts_S20x2048_S20x1x2048 : S20x2048.ShapeCasts S20x1x2048
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x2048_S2048x1024_S512x1024_1_0_0_1_n_n_wf : DotDims.WF S512x2048 S2048x1024 S512x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x2048x2048.size a
  hwx0_3 : ∀ i : grid0.Coords, EltTy.bits .f32 = 32 ∨ (Rect.block (s := S16x2048x2048) S1x512x1024.size (cc0_transform_3 i) (hinb0_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev spec0_0 : Pipeline.WinSpec sig grid0.rank :=
  Pipeline.WinSpec.ofSpec (Memref.whole main_arg0) S1x512x2048.size reads0_0 false false 2 stage0_0 sem0_0 nbuf0_0 hstage0_0

abbrev spec0_1 : Pipeline.WinSpec sig grid0.rank :=
  Pipeline.WinSpec.ofSpec (Memref.whole main_v0) S1x2048x1024.size reads0_1 false false 2 stage0_1 sem0_1 nbuf0_1 hstage0_1

abbrev spec0_2 : Pipeline.WinSpec sig grid0.rank :=
  Pipeline.WinSpec.ofSpec (Memref.whole main_v1) S1x1x1024.size reads0_2 false false 2 stage0_2 sem0_2 nbuf0_2 hstage0_2

abbrev spec0_3 : Pipeline.WinSpec sig grid0.rank :=
  Pipeline.WinSpec.ofSpec (Memref.whole main_v2) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x1024.size a ≤ S20x2048x2048.size a), EltTy.bits .f32 = 32 ∨ (Rect.block (s := S20x2048x2048) S1x2048x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S20x1x2048.size a), EltTy.bits .f32 = 32 ∨ (Rect.block (s := S20x1x2048) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x2048 : Shape := ⟨3, ![16, 2048, 2048]⟩
abbrev S16 : Shape := ⟨1, ![16]⟩
abbrev S20x4194304 : Shape := ⟨2, ![20, 4194304]⟩
abbrev S20x2048 : Shape := ⟨2, ![20, 2048]⟩
abbrev S_ : Shape := ⟨0, ![]⟩
abbrev S16x1 : Shape := ⟨2, ![16, 1]⟩
abbrev S16x4194304 : Shape := ⟨2, ![16, 4194304]⟩
abbrev S16x2048 : Shape := ⟨2, ![16, 2048]⟩
abbrev S16x1x2048 : Shape := ⟨3, ![16, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16, .i32⟩
  | .hbm, ⟨2, _⟩ => ⟨S20x4194304, .f32⟩
  | .hbm, ⟨3, _⟩ => ⟨S20x2048, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x4194304, .f32⟩
  | .hbm, ⟨13, _⟩ => ⟨S16x2048x2048, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x2048, .f32⟩
  | .hbm, ⟨23, _⟩ => ⟨S16x2048x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  shapeCasts_S16x4194304_S16x2048x2048 : S16x4194304.ShapeCasts S16x2048x2048
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  gather_S20x4194304_S16x1_S16x4194304_1_0_n_n_0_1_14194304_wf : GatherDims.WF S20x4194304 S16x1 S16x4194304 [1] [0] [] [0] [] 1 ![1, 4194304]
  gather_S20x2048_S16x1_S16x2048_1_0_n_n_0_1_12048_wf : GatherDims.WF S20x2048 S16x1 S16x2048 [1] [0] [] [0] [] 1 ![1, 2048]
  dot_S16x2048x2048_S16x2048x2048_S16x2048x2048_2_1_1_2_0_0_wf : DotDims.WF S16x2048x2048 S16x2048x2048 S16x2048x2048 [2] [1] [1] [2] [0] [0]

variable [Facts₀]

def gather_S20x4194304_S16x1_S16x4194304_1_0_n_n_0_1_14194304 : GatherDims S20x4194304 S16x1 S16x4194304 where
  offsetDims := [1]
  collapsedSliceDims := [0]
  operandBatchingDims := []
  startIndicesBatchingDims := []
  startIndexMap := [0]
  indexVectorDim := 1
  sliceSizes := ![1, 4194304]
  wf := gather_S20x4194304_S16x1_S16x4194304_1_0_n_n_0_1_14194304_wf
def gather_S20x2048_S16x1_S16x2048_1_0_n_n_0_1_12048 : GatherDims S20x2048 S16x1 S16x2048 where
  offsetDims := [1]
  collapsedSliceDims := [0]
  operandBatchingDims := []
  startIndicesBatchingDims := []
  startIndexMap := [0]
  indexVectorDim := 1
  sliceSizes := ![1, 2048]
  wf := gather_S20x2048_S16x1_S16x2048_1_0_n_n_0_1_12048_wf
def dot_S16x2048x2048_S16x2048x2048_S16x2048x2048_2_1_1_2_0_0 : DotDims S16x2048x2048 S16x2048x2048 S16x2048x2048 where
  lhsContracting := [2]
  rhsContracting := [1]
  lhsNonContracting := [1]
  rhsNonContracting := [2]
  lhsBatch := [0]
  rhsBatch := [0]
  wf := dot_S16x2048x2048_S16x2048x2048_S16x2048x2048_2_1_1_2_0_0_wf

class Facts : Prop extends Facts₀ where

variable [Facts]
-- ==== Proof.DomainRange.lean ====
/-
  The precondition says, beside the finiteness of the three float arrays, that every entry of the integer array
  `domain_id : int32[16]` is at least 0 and below 20, read signed. Such a word, read as a natural number (which is how an
  index map reads it), is below 20: a signed word that is nonnegative is its own unsigned value.
  Here that conjunct is read back out of the printed predicate: the predicate is an `and` of four `jnp.all`s, the last one
  the reduction by `and` of `(domain_id ≥ 0) ∧ (domain_id < 20)` over the 16 entries; a reduction by `and` that came out 1
  met a 1 at every entry.
-/
import proofs.«430369_j6116033429683_3_alg».proof.Pre_finite_inputs
import Idealize.ShloMosaic.Lib.ReduceAll

noncomputable section

namespace Cert.DomainRange

open Idealize.ShloMosaic Cert.Pre_finite_inputs

/-- A 32-bit word that is at least 0 and below 20 as a signed integer is below 20 as a natural number. -/
theorem toNat_lt_twenty (w : BitVec 32) (h0 : IntOp.cmpi .sge w 0#32 = 1#1) (h20 : IntOp.cmpi .slt w 20#32 = 1#1) :
    w.toNat < 20 := by
  rw [IntOp.cmpi_sge] at h0
  rw [IntOp.cmpi_slt] at h20
  have e0 : (0#32 : BitVec 32).toInt = 0 := by decide
  have e20 : (20#32 : BitVec 32).toInt = 20 := by decide
  rw [e0] at h0
  rw [e20] at h20
  have hw := w.isLt
  rw [BitVec.toInt_eq_toNat_cond] at h0 h20
  split at h0 <;> omega

/-- The scalar shape has one index. -/
instance : Subsingleton S_.Idx := ⟨fun a b => funext fun d => d.elim0⟩

variable {F : FTy → Type} [FloatOps F] [Facts]

/-- Under the precondition every entry of `domain_id` is below 20 as a natural number. -/
theorem domain_lt (x : FVec F S16x2048x2048 .f32) (d : IVec S16 32) (wt : FVec F S20x4194304 .f32)
    (bs : FVec F S20x2048 .f32) (h : fn (F := F) x d wt bs = fun _ => 1#1) (b : S16.Idx) : (d b).toNat < 20 := by
  have e := congrFun h (fun a => a.elim0)
  dsimp only [fn, fn_part1] at e
  -- the last conjunct of the outer `and` is the `jnp.all` over the 16 entries
  have hall := (IntOp.andi_eq_one.1 e).2
  -- so entry `b` of `(d ≥ 0) ∧ (d < 20)` is 1
  have hb := IntOp.andi_eq_one.1 (Host.reduce_andi_all _ _ _ _ _ hall b)
  exact toNat_lt_twenty (d b) hb.1 hb.2

end Cert.DomainRange

end
-- ==== Proof.OkKernel.lean ====
/-
  The pipeline's side condition on the prefetched table. The index maps of the weight window and of the bias window
  read entry `b` of the table `domain_id` and use it, as a natural number, as the block index along the first axis of the
  `[20, 2048, 2048]` weights and of the `[20, 1, 2048]` biases; the other two block indices are `0` and the grid's middle
  coordinate `o < 2`, over blocks of `[1, 2048, 1024]` and `[1, 1, 1024]`. Every block lies inside its array as soon as
  every table entry is below 20, which is what the precondition says (its last conjunct, read back in DomainRange).
-/
import proofs.«430369_j6116033429683_3_alg».proof.Proof.Gen.Kernel.Frame
import proofs.«430369_j6116033429683_3_alg».proof.Proof.DomainRange

set_option maxRecDepth 16384

noncomputable section

namespace Cert.Kernel.OkOfPre

open Cert.Kernel Cert.Kernel.Gen
open Idealize.ShloMosaic Idealize.ShloMosaic.TcCoe Idealize.SL.Sem

variable {F : FTy → Type} [FloatOps F] [Cert.Pre_finite_inputs.Facts]
variable (m : (ℓ : Loc nD τ sig) → Buf (Elt F) ℓ)

/-- The precondition of the launch memory, as Defs.lean states it of this program. -/
abbrev Pre : Prop := ∀ c : Dev nD,
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) = fun _ => 1#1

/-- Under the precondition every word of the prefetched table is below 20: the table is `domain_id` as launched. -/
theorem tbl_lt (h : Pre m) (x : S16.Idx) : (tbl m 0 x).toNat < 20 := by
  have e : tbl m 0 = m (((0 : Dev nD) : Thread nD τ).loc main_arg1) := V_main_arg1 m 0
  rw [e]
  exact Cert.DomainRange.domain_lt _ _ _ _ (h 0) x

/-- The grid's middle coordinate, as the 32-bit word the index maps see, is below 2. -/
theorem mid_lt (i : grid0.Coords) : (BitVec.ofNat 32 (i 1).val).toNat < 2 := by
  have h : (i 1).val < 2 := (i 1).isLt
  rw [BitVec.toNat_ofNat]
  omega

/-- The side condition: both table-indexed windows have every block inside their arrays. -/
theorem ok_of_pre (h : Pre m) : Ok m := by
  have hl := tbl_lt m h
  refine ⟨fun i => ?_, fun i => ?_⟩
  · obtain ⟨w, hw, e⟩ : ∃ w : BitVec 32, w.toNat < 20 ∧
        cc0_transform_1 Facts₀.k0_off1_inb Facts₀.numel1_S1 (tbl m) i = ![w.toNat, 0, (BitVec.ofNat 32 (i 1).val).toNat] :=
      ⟨_, hl _, rfl⟩
    have hm := mid_lt i
    refine ⟨fun a => ?_, Or.inl rfl⟩
    rw [e]
    fin_cases a <;> simp [S1x2048x1024, S20x2048x2048] <;> omega
  · obtain ⟨w, hw, e⟩ : ∃ w : BitVec 32, w.toNat < 20 ∧
        cc0_transform_2 Facts₀.k0_off1_inb Facts₀.numel1_S1 (tbl m) i = ![w.toNat, 0, (BitVec.ofNat 32 (i 1).val).toNat] :=
      ⟨_, hl _, rfl⟩
    have hm := mid_lt i
    refine ⟨fun a => ?_, Or.inl rfl⟩
    rw [e]
    fin_cases a <;> simp [S1x1x1024, S20x1x2048] <;> omega

end Cert.Kernel.OkOfPre

end
-- ==== Proof.KPieces.lean ====
/-
  What one run of the kernel body leaves behind, as values. The body has two cases. At the first time tile of a
  (sample, output tile) pair it converts the staged weight block to the scratch's format and keeps it there; at every
  time tile it multiplies the staged rows of `x` by the scratch and adds the staged bias row. So
    · after a first-tile run the scratch holds the converted weight block, and the output block is the product of the `x`
      block with that converted block, plus the bias row;
    · after any other run the scratch is what it was, and the output block is the product with what the scratch held.
-/
import proofs.«430369_j6116033429683_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a first-tile run the scratch holds the weight block in the scratch's format. -/
theorem scratch_A (c : Dev nD) (i : grid0.Coords) (a4 : Memref sig .tc .vmem S1x512x2048 .f32) (h4 : a4.IsWhole)
    (a5 : Memref sig .tc .vmem S1x2048x1024 .f32) (h5 : a5.IsWhole) (a6 : Memref sig .tc .vmem S1x1x1024 .f32) (h6 : a6.IsWhole)
    (a7 : Memref sig .tc .vmem S1x512x1024 .f32) (h7 : a7.IsWhole) (a8 : Memref sig .tc .vmem S2048x1024 .bf16) (h8 : a8.IsWhole)
    (hc : cond0_0 i) (x0 : Vec F S1x512x2048 .f32) (x1 : Vec F S1x2048x1024 .f32) (x2 : Vec F S1x1x1024 .f32)
    (xt0 : TbBuf0 (F := F) c tbM0_0) :
    sout0_A_0 c i a4 h4 a5 h5 a6 h6 a7 h7 a8 h8 hc x0 x1 x2 xt0 = k0_pay1 x1 := by
  unfold sout0_A_0
  rw [View.read_writes_eq_canon _ _ _ (scover0_A_0 c i a4 h4 a5 h5 a6 h6 a7 h7 a8 h8 hc x0 x1 x2 xt0)]
  unfold kernelRun0_A
  dsimp only
  sl_unfold_words
  rw [View.canon_unit_zero hz2]
  simp only [View.readAt_eq_ld, h5.read_unread, View.ld_unit_zero (S := S1x2048x1024) hz3]

/-- After a first-tile run the output block is the product of the `x` block with the converted weight block, plus bias. -/
theorem out_A (c : Dev nD) (i : grid0.Coords) (a4 : Memref sig .tc .vmem S1x512x2048 .f32) (h4 : a4.IsWhole)
    (a5 : Memref sig .tc .vmem S1x2048x1024 .f32) (h5 : a5.IsWhole) (a6 : Memref sig .tc .vmem S1x1x1024 .f32) (h6 : a6.IsWhole)
    (a7 : Memref sig .tc .vmem S1x512x1024 .f32) (h7 : a7.IsWhole) (a8 : Memref sig .tc .vmem S2048x1024 .bf16) (h8 : a8.IsWhole)
    (hc : cond0_0 i) (x0 : Vec F S1x512x2048 .f32) (x1 : Vec F S1x2048x1024 .f32) (x2 : Vec F S1x1x1024 .f32)
    (xt0 : TbBuf0 (F := F) c tbM0_0) :
    out0_A_3 c i a4 h4 a5 h5 a6 h6 a7 h7 a8 h8 hc x0 x1 x2 xt0 = k0_pay2 x0 (k0_pay1 x1) x2 := by
  unfold out0_A_3
  rw [View.read_writes_eq_canon _ _ _ (cover0_A_3 c i a4 h4 a5 h5 a6 h6 a7 h7 a8 h8 hc x0 x1 x2 xt0)]
  unfold kernelRun0_A
  dsimp only
  sl_unfold_words
  rw [View.canon_unit_zero hz3]
  simp only [View.readAt_eq_ld, h4.read_unread, h5.read_unread, h6.read_unread, View.ld_unit_zero (S := S1x512x2048) hz3,
    View.ld_unit_zero (S := S1x2048x1024) hz3, View.ld_unit_zero (S := S1x1x1024) hz3,
    View.readCov_unit_zero (S := S2048x1024) _ hz2]

/-- After any other run the output block is the product of the `x` block with what the scratch held, plus bias. -/
theorem out_B (c : Dev nD) (i : grid0.Coords) (a4 : Memref sig .tc .vmem S1x512x2048 .f32) (h4 : a4.IsWhole)
    (a5 : Memref sig .tc .vmem S1x2048x1024 .f32) (h5 : a5.IsWhole) (a6 : Memref sig .tc .vmem S1x1x1024 .f32) (h6 : a6.IsWhole)
    (a7 : Memref sig .tc .vmem S1x512x1024 .f32) (h7 : a7.IsWhole) (a8 : Memref sig .tc .vmem S2048x1024 .bf16) (h8 : a8.IsWhole)
    (hc : ¬cond0_0 i) (x0 : Vec F S1x512x2048 .f32) (x1 : Vec F S1x2048x1024 .f32) (x2 : Vec F S1x1x1024 .f32)
    (xt0 : TbBuf0 (F := F) c tbM0_0) (xs0 : Vec F S2048x1024 .bf16) :
    out0_B_3 c i a4 h4 a5 h5 a6 h6 a7 h7 a8 h8 hc x0 x1 x2 xt0 xs0 = k0_pay2 x0 xs0 x2 := by
  unfold out0_B_3
  rw [View.read_writes_eq_canon _ _ _ (cover0_B_3 c i a4 h4 a5 h5 a6 h6 a7 h7 a8 h8 hc x0 x1 x2 xt0 xs0)]
  unfold kernelRun0_B
  dsimp only
  rw [View.canon_unit_zero hz3]
  simp only [View.readAt_eq_ld, h4.read_unread, h6.read_unread, h8.read_unread, View.ld_unit_zero (S := S1x512x2048) hz3,
    View.ld_unit_zero (S := S1x1x1024) hz3, View.ld_unit_zero (S := S2048x1024) hz2]

end Cert.KernelIdeal.KValue

end
-- ==== Proof.KBlocks.lean ====
/-
  Where each staged block sits in its array. The grid has 128 points; point `n` is sample `b = n / 8`, output tile
  `o = n / 4 mod 2`, time tile `s = n mod 4` (time innermost). At that point
    · the `x` block is rows `512·s … 512·s + 511` of sample `b`, all 2048 input features;
    · the weight block is, of the weight matrix of the domain `d[b]` the table names, all 2048 input features by output
      features `1024·o … 1024·o + 1023`;
    · the bias block is the same output features of that domain's one bias row;
    · the output block is rows `512·s …` by output features `1024·o …` of sample `b`.
-/
import proofs.«430369_j6116033429683_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The grid's coordinates at point `n`: sample, output tile, time tile. -/
theorem coords_val : ∀ t : Fin grid0.N, ((grid0.coords t) 0).val = t.val / 8 ∧ ((grid0.coords t) 1).val = t.val / 4 % 2
    ∧ ((grid0.coords t) 2).val = t.val % 4 :=
  (by decide +kernel : ∀ t : Fin grid0.N, _)

/-- The arrays as the region finds them, and the staged input blocks, at their literal types. -/
abbrev xarr (c : Dev nD) : Vec F S16x2048x2048 .f32 := V m c main_arg0
abbrev warr (c : Dev nD) : Vec F S20x2048x2048 .f32 := V m c main_v0
abbrev barr (c : Dev nD) : Vec F S20x1x2048 .f32 := V m c main_v1
abbrev xblk (hO : Ok m) (c : Dev nD) (t : Fin (cfgM m hO).N) : Vec F S1x512x2048 .f32 := iblk m hO c 0 t
abbrev wblk (hO : Ok m) (c : Dev nD) (t : Fin (cfgM m hO).N) : Vec F S1x2048x1024 .f32 := iblk m hO c 1 t
abbrev bblk (hO : Ok m) (c : Dev nD) (t : Fin (cfgM m hO).N) : Vec F S1x1x1024 .f32 := iblk m hO c 2 t

/-- The `x` block at `(0, p, k)`: row `512·s + p` of sample `b`, input feature `k`. -/
theorem xblk_apply (hO : Ok m) (c : Dev nD) (t : Fin (cfgM m hO).N) (b : Fin 16) (r : Fin 2048) (p : Fin 512) (k : Fin 2048)
    (hb : b.val = t.val / 8) (hr : r.val = t.val % 4 * 512 + p.val) :
    xblk m hO c t (ix3 (0 : Fin 1) p k) = xarr m c (ix3 b r k) := by
  obtain ⟨c0, c1, c2⟩ := coords_val t
  show V m c main_arg0 ((((cfgM m hO).win 0).blk t).view.emb (ix3 (0 : Fin 1) p k)) = V m c main_arg0 (ix3 b r k)
  refine congrArg (V m c main_arg0) ?_
  funext a
  apply Fin.ext
  match a with
  | ⟨0, _⟩ =>
    show (BitVec.ofNat 32 ((grid0.coords t) 0).val).toNat * 1 + 1 * 0 = b.val
    rw [BitVec.toNat_ofNat, c0, hb]; have := t.isLt; omega
  | ⟨1, _⟩ =>
    show (BitVec.ofNat 32 ((grid0.coords t) 2).val).toNat * 512 + 1 * p.val = r.val
    rw [BitVec.toNat_ofNat, c2, hr]; omega
  | ⟨2, _⟩ =>
    show 0 * 2048 + 1 * k.val = k.val
    omega

/-- The word an index map loads from the table at sample `b`: entry `b` of the table. -/
theorem table_word (pf : pre0.Contents (Elt F)) (i : grid0.Coords) (b : Fin 16) (hb : b.val = (i 0).val)
    (inb : ∀ a, (![(Scalar.indexCast (BitVec.ofNat 32 (i 0).val)).toNat] : Fin 1 → Nat) a + S1.size a ≤ S16.size a)
    (h1 : S1.numel = 1) :
    pf.at 0 (Rect.unit (s := S16) ![(Scalar.indexCast (BitVec.ofNat 32 (i 0).val)).toNat] S1.size inb) h1 = pf 0 (ix1 b) := by
  show pf 0 _ = pf 0 _
  refine congrArg (pf 0) ?_
  funext a
  apply Fin.ext
  match a with
  | ⟨0, _⟩ =>
    show (BitVec.ofNat 32 (i 0).val).toNat + 1 * (Shape.Idx.first (h1.symm ▸ Nat.one_pos) (0 : Fin 1)).val = b.val
    have hf : (Shape.Idx.first (h1.symm ▸ Nat.one_pos : 0 < S1.numel) (0 : Fin 1)).val < 1 :=
      (Shape.Idx.first (h1.symm ▸ Nat.one_pos : 0 < S1.numel) (0 : Fin 1)).isLt
    have hb16 := b.isLt
    rw [BitVec.toNat_ofNat, ← hb]
    omega

/-- The weight block at `(0, k, q)`: of the matrix of domain `d` (the table's word at sample `b`), input feature `k`,
    output feature `1024·o + q`. -/
theorem wblk_apply (hO : Ok m) (c : Dev nD) (t : Fin (cfgM m hO).N) (b : Fin 16) (d : Fin 20) (k : Fin 2048) (q : Fin 1024)
    (o : Fin 2048) (hb : b.val = t.val / 8) (hd : d.val = (tbl m 0 (ix1 b)).toNat) (ho : o.val = t.val / 4 % 2 * 1024 + q.val) :
    wblk m hO c t (ix3 (0 : Fin 1) k q) = warr m c (ix3 d k o) := by
  obtain ⟨c0, c1, c2⟩ := coords_val t
  show V m c main_v0 ((((cfgM m hO).win 1).blk t).view.emb (ix3 (0 : Fin 1) k q)) = V m c main_v0 (ix3 d k o)
  refine congrArg (V m c main_v0) ?_
  funext a
  apply Fin.ext
  match a with
  | ⟨0, _⟩ =>
    show ((tbl m).at 0 _ _).toNat * 1 + 1 * 0 = d.val
    refine (congrArg (fun w : BitVec 32 => w.toNat * 1 + 1 * 0)
      (table_word (tbl m) (grid0.coords t) b (by rw [hb, c0]) _ _)).trans ?_
    show (tbl m 0 (ix1 b)).toNat * 1 + 1 * 0 = d.val
    rw [hd]; omega
  | ⟨1, _⟩ =>
    show 0 * 2048 + 1 * k.val = k.val
    omega
  | ⟨2, _⟩ =>
    show (BitVec.ofNat 32 ((grid0.coords t) 1).val).toNat * 1024 + 1 * q.val = o.val
    rw [BitVec.toNat_ofNat, c1, ho]; omega

/-- The bias block at `(0, 0, q)`: of the bias row of domain `d`, output feature `1024·o + q`. -/
theorem bblk_apply (hO : Ok m) (c : Dev nD) (t : Fin (cfgM m hO).N) (b : Fin 16) (d : Fin 20) (q : Fin 1024)
    (o : Fin 2048) (hb : b.val = t.val / 8) (hd : d.val = (tbl m 0 (ix1 b)).toNat) (ho : o.val = t.val / 4 % 2 * 1024 + q.val) :
    bblk m hO c t (ix3 (0 : Fin 1) (0 : Fin 1) q) = barr m c (ix3 d (0 : Fin 1) o) := by
  obtain ⟨c0, c1, c2⟩ := coords_val t
  show V m c main_v1 ((((cfgM m hO).win 2).blk t).view.emb (ix3 (0 : Fin 1) (0 : Fin 1) q)) = V m c main_v1 (ix3 d (0 : Fin 1) o)
  refine congrArg (V m c main_v1) ?_
  funext a
  apply Fin.ext
  match a with
  | ⟨0, _⟩ =>
    show ((tbl m).at 0 _ _).toNat * 1 + 1 * 0 = d.val
    refine (congrArg (fun w : BitVec 32 => w.toNat * 1 + 1 * 0)
      (table_word (tbl m) (grid0.coords t) b (by rw [hb, c0]) _ _)).trans ?_
    show (tbl m 0 (ix1 b)).toNat * 1 + 1 * 0 = d.val
    rw [hd]; omega
  | ⟨1, _⟩ =>
    show 0 * 1 + 1 * 0 = 0
    omega
  | ⟨2, _⟩ =>
    show (BitVec.ofNat 32 ((grid0.coords t) 1).val).toNat * 1024 + 1 * q.val = o.val
    rw [BitVec.toNat_ofNat, c1, ho]; omega

/-- Where entry `(0, p, q)` of the output block goes: sample `b`, row `512·s + p`, output feature `1024·o + q`. -/
theorem oblk_emb (hO : Ok m) (t : Fin (cfgM m hO).N) (b : Fin 16) (r : Fin 2048) (o : Fin 2048) (p : Fin 512) (q : Fin 1024)
    (hb : b.val = t.val / 8) (hr : r.val = t.val % 4 * 512 + p.val) (ho : o.val = t.val / 4 % 2 * 1024 + q.val) :
    (((cfgM m hO).win 3).blk t).view.emb (ix3 (0 : Fin 1) p q) = ix3 b r o := by
  obtain ⟨c0, c1, c2⟩ := coords_val t
  funext a
  apply Fin.ext
  match a with
  | ⟨0, _⟩ =>
    show (BitVec.ofNat 32 ((grid0.coords t) 0).val).toNat * 1 + 1 * 0 = b.val
    rw [BitVec.toNat_ofNat, c0, hb]; have := t.isLt; omega
  | ⟨1, _⟩ =>
    show (BitVec.ofNat 32 ((grid0.coords t) 2).val).toNat * 512 + 1 * p.val = r.val
    rw [BitVec.toNat_ofNat, c2, hr]; omega
  | ⟨2, _⟩ =>
    show (BitVec.ofNat 32 ((grid0.coords t) 1).val).toNat * 1024 + 1 * q.val = o.val
    rw [BitVec.toNat_ofNat, c1, ho]; omega

end Cert.KernelIdeal.KValue

end
-- ==== Proof.KCases.lean ====
/-
  What the output's staging buffer and the scratch hold after each grid point, by the point's case, in terms of the body's
  two stored values and the point's staged blocks: at a first time tile (point number divisible by 4) the scratch becomes
  the converted weight block of that point and the output block is computed from it; at any other point the scratch is
  what the point before left and the output block is computed from that.
-/
import proofs.«430369_j6116033429683_3_alg».proof.Proof.KPieces
import proofs.«430369_j6116033429683_3_alg».proof.Proof.KBlocks

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- After a point at a first time tile. -/
theorem outsAt_first (hO : Ok m) (c : Dev nD) (t : Fin (cfgM m hO).N) (h0 : t.val % 4 = 0) :
    outsAt0 m hO c t.val t.isLt
      = (k0_pay2 (xblk m hO c t) (k0_pay1 (wblk m hO c t)) (bblk m hO c t), k0_pay1 (wblk m hO c t)) := by
  refine (outsAt0_A m hO c t h0).trans ?_
  exact congrArg₂ Prod.mk
    (out_A (F := F) c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) ((hcond0_0 t).mpr h0) (xblk m hO c t) (wblk m hO c t)
      (bblk m hO c t) (tbl m 0))
    (scratch_A (F := F) c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) ((hcond0_0 t).mpr h0) (xblk m hO c t) (wblk m hO c t)
      (bblk m hO c t) (tbl m 0))

/-- After a point at a later time tile: the scratch is carried over from the point before. -/
theorem outsAt_later (hO : Ok m) (c : Dev nD) (t : Fin (cfgM m hO).N) (h0 : ¬t.val % 4 = 0) :
    outsAt0 m hO c t.val t.isLt
      = (k0_pay2 (xblk m hO c t) (outsAt0 m hO c (t.val - 1) (Nat.lt_of_le_of_lt (Nat.sub_le _ _) t.isLt)).2 (bblk m hO c t),
         (outsAt0 m hO c (t.val - 1) (Nat.lt_of_le_of_lt (Nat.sub_le _ _) t.isLt)).2) := by
  refine (outsAt0_B m hO c t h0).trans ?_
  exact congrArg₂ Prod.mk
    (out_B (F := F) c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) (fun h => h0 ((hcond0_0 t).mp h)) (xblk m hO c t) (wblk m hO c t)
      (bblk m hO c t) (tbl m 0) (outsAt0 m hO c (t.val - 1) (Nat.lt_of_le_of_lt (Nat.sub_le _ _) t.isLt)).2)
    rfl

end Cert.KernelIdeal.KValue

end
-- ==== Proof.KPayload.lean ====
/-
  The body's two stored values, read one entry at a time over the extended reals, where a change of float format is the
  identity and the matrix unit's product into a zero accumulator is the plain sum of products.
    · The converted weight block at `(k, q)` is the staged weight block at `(0, k, q)`.
    · The output block at `(0, p, q)` is `Σ_k x[0, p, k] · w[k, q] + bias[0, 0, q]`: row `p` of the staged `x` rows times column
      `q` of the matrix the scratch holds, plus entry `q` of the one staged bias row (the row is broadcast down the 512 rows).
-/
import proofs.«430369_j6116033429683_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen

/-- The converted weight block at `(k, q)`: the staged block at `(0, k, q)`. -/
theorem pay1_apply (x1 : Vec Ideal S1x2048x1024 .f32) (k : Fin 2048) (q : Fin 1024) :
    k0_pay1 (F := Ideal) x1 (ix2 k q) = x1 (ix3 (0 : Fin 1) k q) := by
  unfold k0_pay1
  rw [shapeCast_self]
  exact shapeCast_1ab_ab_apply x1 _ k q

/-! ### The product's operand indices: at output `(p, q)` and contraction coordinate `k` the left operand is read at
`(p, k)` and the right at `(k, q)`. -/

theorem lhs_mm_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem lhs_mm_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_mm_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_mm_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The matrix unit's product into the zero accumulator, at `(p, q)`: the sum over `k` of `a[p, k] · b[k, q]`. -/
theorem mm_apply (a : FVec Ideal S512x2048 .bf16) (b : FVec Ideal S2048x1024 .bf16) (p : Fin 512) (q : Fin 1024) :
    matmul dot_S512x2048_S2048x1024_S512x1024_1_0_0_1_n_n none a b (constant (F := Ideal) S512x1024 .f32 0x00000000#32) (ix2 p q)
      = ∑ k : Fin 2048, a (ix2 p k) * b (ix2 k q) := by
  refine (Ideal.matmul_constant_zero_apply dot_S512x2048_S2048x1024_S512x1024_1_0_0_1_n_n none a b (ix2 p q)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q)
      ((contrEquiv1 dot_S512x2048_S2048x1024_S512x1024_1_0_0_1_n_n 2048 rfl rfl).symm k) = ix2 p k :=
    funext fun ax => Fin.ext (by
      match ax with
      | ⟨0, _⟩ => exact lhs_mm_0 _ _
      | ⟨1, _⟩ => exact (lhs_mm_1 _ _).trans hk)
  have er : dot_S512x2048_S2048x1024_S512x1024_1_0_0_1_n_n.rhsIdx (ix2 p q)
      ((contrEquiv1 dot_S512x2048_S2048x1024_S512x1024_1_0_0_1_n_n 2048 rfl rfl).symm k) = ix2 k q :=
    funext fun ax => Fin.ext (by
      match ax with
      | ⟨0, _⟩ => exact (rhs_mm_0 _ _).trans hk
      | ⟨1, _⟩ => exact rhs_mm_1 _ _)
  rw [el, er]

/-- The output block at `(0, p, q)`. -/
theorem pay2_apply (x0 : Vec Ideal S1x512x2048 .f32) (ws : Vec Ideal S2048x1024 .bf16) (x2 : Vec Ideal S1x1x1024 .f32)
    (p : Fin 512) (q : Fin 1024) :
    k0_pay2 (F := Ideal) x0 ws x2 (ix3 (0 : Fin 1) p q)
      = (∑ k : Fin 2048, x0 (ix3 (0 : Fin 1) p k) * ws (ix2 k q)) + x2 (ix3 (0 : Fin 1) (0 : Fin 1) q) := by
  unfold k0_pay2
  refine (shapeCast_ab_1ab_apply _ _ (0 : Fin 1) p q).trans ?_
  refine (addf_apply _ _ (ix2 p q)).trans ?_
  refine congrArg₂ (· + ·) ?_ ?_
  · refine (mm_apply _ _ p q).trans ?_
    refine Finset.sum_congr rfl fun k _ => ?_
    exact congrArg (· * ws (ix2 k q)) (shapeCast_1ab_ab_apply x0 _ p k)
  · refine (broadcastTo_1b_ab_apply _ _ p q).trans ?_
    exact shapeCast_1ab_ab_apply x2 _ (0 : Fin 1) q

end Cert.KernelIdeal.KValue

end
-- ==== Proof.Spec.lean ====
/-
  The specification: what both programs compute, as ONE function of the four argument arrays, index by index, on the
  extended reals.

      out[b, t, o] = Σ_k x[b, t, k] · fc[row(d[b]), k·2048 + o]  +  bias[row(d[b]), o]

  a per-sample linear layer: sample `b` uses the weight matrix and the bias vector of its domain `d[b]`; the flat weight row
  of `2048·2048` numbers is read as a `2048 × 2048` matrix, row-major, input feature `k` by output feature `o`.
  `row w` is the table row a 32-bit word `w` selects, the way array indexing reads it: a negative word counts from the
  end (`w + 20`), and the result is clamped into `[0, 19]`. For a word in `[0, 20)` it is the word itself (`row_val`).
-/
import Idealize.ShloMosaic.Lib.ValueIdx
import Idealize.ShloMosaic.Lib.Affine

noncomputable section

open scoped BigOperators

namespace Cert.DomainLinear

open Idealize.ShloMosaic Idealize.ShloMosaic.ValueIdx

abbrev SX : Shape := ⟨3, ![16, 2048, 2048]⟩
abbrev SD : Shape := ⟨1, ![16]⟩
abbrev SW : Shape := ⟨2, ![20, 4194304]⟩
abbrev SB : Shape := ⟨2, ![20, 2048]⟩

/-- The word indexing reads: a negative word counts from the end of the 20 rows. -/
def wrap (w : BitVec 32) : BitVec 32 := Scalar.select (IntOp.cmpi .slt w 0#32) (IntOp.addi w 20#32) w

/-- The table row a word selects: wrapped, read signed, clamped into `[0, 19]`. -/
def row (w : BitVec 32) : Fin 20 := ⟨min (wrap w).toInt.toNat 19, by omega⟩

/-- A word in `[0, 20)` selects the row of its own value. -/
theorem row_val (w : BitVec 32) (h : w.toNat < 20) : (row w).val = w.toNat := by
  have hi : w.toInt = (w.toNat : Int) := by
    rw [BitVec.toInt_eq_toNat_cond]; split <;> omega
  have hs : IntOp.cmpi .slt w 0#32 = 0#1 := by
    have : ¬ (IntOp.cmpi .slt w 0#32 = 1#1) := by
      rw [IntOp.cmpi_slt, hi]
      have e0 : (0#32 : BitVec 32).toInt = 0 := by decide
      rw [e0]; omega
    exact eq_zero_of_ne_one this
  show min (wrap w).toInt.toNat 19 = w.toNat
  unfold wrap
  rw [hs, select_zero, hi]
  omega

/-- Position `k·2048 + o` of a flat weight row: entry `(k, o)` of the `2048 × 2048` matrix, row-major. -/
def flat (k o : Fin 2048) : Fin 4194304 := ⟨k.val * 2048 + o.val, by have := k.isLt; have := o.isLt; omega⟩

/-- The result at `(b, t, o)`. -/
def Gat (x : FVec Ideal SX .f32) (d : IVec SD 32) (fc : FVec Ideal SW .f32) (bias : FVec Ideal SB .f32)
    (b : Fin 16) (t o : Fin 2048) : EReal :=
  (∑ k : Fin 2048, x (ix3 b t k) * fc (ix2 (row (d (ix1 b))) (flat k o))) + bias (ix2 (row (d (ix1 b))) o)

/-- The result array. -/
def G (x : FVec Ideal SX .f32) (d : IVec SD 32) (fc : FVec Ideal SW .f32) (bias : FVec Ideal SB .f32) :
    FVec Ideal SX .f32 :=
  fun i => Gat x d fc bias (i 0) (i 1) (i 2)

theorem G_apply (x : FVec Ideal SX .f32) (d : IVec SD 32) (fc : FVec Ideal SW .f32) (bias : FVec Ideal SB .f32)
    (b : Fin 16) (t o : Fin 2048) : G x d fc bias (ix3 b t o) = Gat x d fc bias b t o := rfl

end Cert.DomainLinear

end
-- ==== Proof.KHost.lean ====
/-
  The two reshapes that run before the kernel. The flat weight table `[20, 2048·2048]` is read by the kernel as
  `[20, 2048, 2048]`: entry `(d, k, o)` is entry `(d, k·2048 + o)` of the flat table (row-major). The bias table
  `[20, 2048]` is read as `[20, 1, 2048]`: entry `(d, 0, o)` is entry `(d, o)`.
-/
import proofs.«430369_j6116033429683_3_alg».proof.Proof.KBlocks
import proofs.«430369_j6116033429683_3_alg».proof.Proof.Spec
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.DomainLinear

variable {F : FTy → Type} [FloatOps F]
variable (m : (ℓ : Loc nD τ sig) → Buf (Elt F) ℓ)

/-- The weights as the region finds them: the launched flat table, reshaped. -/
theorem warr_eq (c : Dev nD) :
    warr m c = shapeCast S20x2048x2048 (m ((c : Thread nD τ).loc main_arg2)) Facts₀.shapeCasts_S20x4194304_S20x2048x2048 := by
  dsimp only [warr, V, hostOps0]
  after_results
  rfl

/-- The biases as the region finds them: the launched table, reshaped. -/
theorem barr_eq (c : Dev nD) :
    barr m c = shapeCast S20x1x2048 (m ((c : Thread nD τ).loc main_arg3)) Facts₀.shapeCasts_S20x2048_S20x1x2048 := by
  dsimp only [barr, V, hostOps0]
  after_results
  rfl

/-- Entry `(d, k, o)` of the reshaped weights. -/
theorem warr_apply (c : Dev nD) (d : Fin 20) (k o : Fin 2048) :
    warr m c (ix3 d k o) = m ((c : Thread nD τ).loc main_arg2) (ix2 d (flat k o)) := by
  rw [warr_eq]
  exact shapeCast_apply _ _ (ix3 d k o) (ix2 d (flat k o)) (by
    rw [Shape.rowMajor_val_two, Shape.rowMajor_val_three]
    show d.val * 4194304 + (k.val * 2048 + o.val) = (d.val * 2048 + k.val) * 2048 + o.val
    omega)

/-- Entry `(d, 0, o)` of the reshaped biases. -/
theorem barr_apply (c : Dev nD) (d : Fin 20) (o : Fin 2048) :
    barr m c (ix3 d (0 : Fin 1) o) = m ((c : Thread nD τ).loc main_arg3) (ix2 d o) := by
  rw [barr_eq]
  exact shapeCast_apply _ _ (ix3 d (0 : Fin 1) o) (ix2 d o) (by
    rw [Shape.rowMajor_val_two, Shape.rowMajor_val_three]
    show d.val * 2048 + o.val = (d.val * 1 + 0) * 2048 + o.val
    omega)

/-- The `x` array and the table as the region finds them are the launched ones. -/
theorem xarr_eq (c : Dev nD) : xarr m c = m ((c : Thread nD τ).loc main_arg0) := V_main_arg0 m c
theorem tbl_eq : tbl m 0 = m (((0 : Dev nD) : Thread nD τ).loc main_arg1) := V_main_arg1 m 0

end Cert.KernelIdeal.KValue

end
-- ==== Proof.KInvariant.lean ====
/-
  The induction over the 128 grid points, over the extended reals.
  After point `n` (sample `b = n / 8`, output tile `o = n / 4 mod 2`) the scratch holds, at `(k, q)`, entry
  `(k, 1024·o + q)` of the weight matrix of domain `d[b]`: at a first time tile it has just been written with exactly that
  block; at a later one it is what the point before left, and the point before has the same sample and the same output
  tile (time is the innermost grid axis and `n` is not divisible by 4).
  So at every point the output block at `(0, p, q)` is `Σ_k x[b, 512·s + p, k] · W_d[k, 1024·o + q] + bias_d[1024·o + q]`, the
  specification's value at `(b, 512·s + p, 1024·o + q)`.
-/
import proofs.«430369_j6116033429683_3_alg».proof.Proof.KCases
import proofs.«430369_j6116033429683_3_alg».proof.Proof.KPayload
import proofs.«430369_j6116033429683_3_alg».proof.Proof.KHost

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.DomainLinear

variable (m : (ℓ : Loc nD τ sig) → Buf (Elt Ideal) ℓ)

/-- The scratch after point `n`, at `(k, q)`. -/
theorem scr_val (hlt : ∀ x, (tbl m 0 x).toNat < 20) (hO : Ok m) (c : Dev nD) :
    ∀ (n : ℕ) (hn : n < (cfgM m hO).N) (b : Fin 16) (k : Fin 2048) (q : Fin 1024) (o : Fin 2048),
      b.val = n / 8 → o.val = n / 4 % 2 * 1024 + q.val →
      (outsAt0 m hO c n hn).2 (ix2 k q) = warr m c (ix3 (row (tbl m 0 (ix1 b))) k o)
  | 0, hn, b, k, q, o, hb, ho => by
    refine (congrFun (congrArg Prod.snd (outsAt_first m hO c ⟨0, hn⟩ rfl)) (ix2 k q)).trans ?_
    refine (pay1_apply (wblk m hO c ⟨0, hn⟩) k q).trans ?_
    exact wblk_apply m hO c ⟨0, hn⟩ b (row (tbl m 0 (ix1 b))) k q o hb (row_val _ (hlt _)) ho
  | n + 1, hn, b, k, q, o, hb, ho => by
    by_cases h0 : (n + 1) % 4 = 0
    · refine (congrFun (congrArg Prod.snd (outsAt_first m hO c ⟨n + 1, hn⟩ h0)) (ix2 k q)).trans ?_
      refine (pay1_apply (wblk m hO c ⟨n + 1, hn⟩) k q).trans ?_
      exact wblk_apply m hO c ⟨n + 1, hn⟩ b (row (tbl m 0 (ix1 b))) k q o hb (row_val _ (hlt _)) ho
    · refine (congrFun (congrArg Prod.snd (outsAt_later m hO c ⟨n + 1, hn⟩ h0)) (ix2 k q)).trans ?_
      exact scr_val hlt hO c n (Nat.lt_of_succ_lt hn) b k q o (by omega) (by omega)

/-- The output block after point `t`, at `(0, p, q)`: the specification at `(b, 512·s + p, 1024·o + q)`. -/
theorem out_val (hlt : ∀ x, (tbl m 0 x).toNat < 20) (hO : Ok m) (c : Dev nD) (t : Fin (cfgM m hO).N)
    (b : Fin 16) (r o : Fin 2048) (p : Fin 512) (q : Fin 1024)
    (hb : b.val = t.val / 8) (hr : r.val = t.val % 4 * 512 + p.val) (ho : o.val = t.val / 4 % 2 * 1024 + q.val) :
    (outsAt0 m hO c t.val t.isLt).1 (ix3 (0 : Fin 1) p q)
      = Gat (m ((c : Thread nD τ).loc main_arg0)) (tbl m 0) (m ((c : Thread nD τ).loc main_arg2))
          (m ((c : Thread nD τ).loc main_arg3)) b r o := by
  have hN : t.val < 128 := lt_of_lt_of_eq t.isLt (show (cfgM m hO).N = 128 from N_0)
  -- the matrix the product uses, whichever the case: the weight block of this sample's domain and this output tile
  have hscr : ∃ ws : Vec Ideal S2048x1024 .bf16, (outsAt0 m hO c t.val t.isLt).1 = k0_pay2 (xblk m hO c t) ws (bblk m hO c t)
      ∧ ∀ k : Fin 2048, ws (ix2 k q) = warr m c (ix3 (row (tbl m 0 (ix1 b))) k o) := by
    by_cases h0 : t.val % 4 = 0
    · refine ⟨k0_pay1 (wblk m hO c t), congrArg Prod.fst (outsAt_first m hO c t h0), fun k => ?_⟩
      refine (pay1_apply (wblk m hO c t) k q).trans ?_
      exact wblk_apply m hO c t b (row (tbl m 0 (ix1 b))) k q o hb (row_val _ (hlt _)) ho
    · refine ⟨(outsAt0 m hO c (t.val - 1) (Nat.lt_of_le_of_lt (Nat.sub_le _ _) t.isLt)).2,
        congrArg Prod.fst (outsAt_later m hO c t h0), fun k => ?_⟩
      exact scr_val m hlt hO c (t.val - 1) _ b k q o (by omega) (by omega)
  obtain ⟨ws, e1, e2⟩ := hscr
  refine (congrFun e1 (ix3 (0 : Fin 1) p q)).trans ?_
  refine (pay2_apply (xblk m hO c t) ws (bblk m hO c t) p q).trans ?_
  unfold Gat
  refine congrArg₂ (· + ·) (Finset.sum_congr rfl fun k _ => ?_) ?_
  · rw [e2 k, xblk_apply m hO c t b r p k hb hr, xarr_eq, warr_apply]
  · rw [bblk_apply m hO c t b (row (tbl m 0 (ix1 b))) q o hb (row_val _ (hlt _)) ho, barr_apply]

end Cert.KernelIdeal.KValue

end
-- ==== Proof.OkIdeal.lean ====
/-
  The pipeline's side condition on the prefetched table. The index maps of the weight window and of the bias window
  read entry `b` of the table `domain_id` and use it, as a natural number, as the block index along the first axis of the
  `[20, 2048, 2048]` weights and of the `[20, 1, 2048]` biases; the other two block indices are `0` and the grid's middle
  coordinate `o < 2`, over blocks of `[1, 2048, 1024]` and `[1, 1, 1024]`. Every block lies inside its array as soon as
  every table entry is below 20, which is what the precondition says (its last conjunct, read back in DomainRange).
-/
import proofs.«430369_j6116033429683_3_alg».proof.Proof.Gen.KernelIdeal.Frame
import proofs.«430369_j6116033429683_3_alg».proof.Proof.DomainRange

set_option maxRecDepth 16384

noncomputable section

namespace Cert.KernelIdeal.OkOfPre

open Cert.KernelIdeal Cert.KernelIdeal.Gen
open Idealize.ShloMosaic Idealize.ShloMosaic.TcCoe Idealize.SL.Sem

variable {F : FTy → Type} [FloatOps F] [Cert.Pre_finite_inputs.Facts]
variable (m : (ℓ : Loc nD τ sig) → Buf (Elt F) ℓ)

/-- The precondition of the launch memory, as Defs.lean states it of this program. -/
abbrev Pre : Prop := ∀ c : Dev nD,
  Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) = fun _ => 1#1

/-- Under the precondition every word of the prefetched table is below 20: the table is `domain_id` as launched. -/
theorem tbl_lt (h : Pre m) (x : S16.Idx) : (tbl m 0 x).toNat < 20 := by
  have e : tbl m 0 = m (((0 : Dev nD) : Thread nD τ).loc main_arg1) := V_main_arg1 m 0
  rw [e]
  exact Cert.DomainRange.domain_lt _ _ _ _ (h 0) x

/-- The grid's middle coordinate, as the 32-bit word the index maps see, is below 2. -/
theorem mid_lt (i : grid0.Coords) : (BitVec.ofNat 32 (i 1).val).toNat < 2 := by
  have h : (i 1).val < 2 := (i 1).isLt
  rw [BitVec.toNat_ofNat]
  omega

/-- The side condition: both table-indexed windows have every block inside their arrays. -/
theorem ok_of_pre (h : Pre m) : Ok m := by
  have hl := tbl_lt m h
  refine ⟨fun i => ?_, fun i => ?_⟩
  · obtain ⟨w, hw, e⟩ : ∃ w : BitVec 32, w.toNat < 20 ∧
        cc0_transform_1 Facts₀.k0_off1_inb Facts₀.numel1_S1 (tbl m) i = ![w.toNat, 0, (BitVec.ofNat 32 (i 1).val).toNat] :=
      ⟨_, hl _, rfl⟩
    have hm := mid_lt i
    refine ⟨fun a => ?_, Or.inl rfl⟩
    rw [e]
    fin_cases a <;> simp [S1x2048x1024, S20x2048x2048] <;> omega
  · obtain ⟨w, hw, e⟩ : ∃ w : BitVec 32, w.toNat < 20 ∧
        cc0_transform_2 Facts₀.k0_off1_inb Facts₀.numel1_S1 (tbl m) i = ![w.toNat, 0, (BitVec.ofNat 32 (i 1).val).toNat] :=
      ⟨_, hl _, rfl⟩
    have hm := mid_lt i
    refine ⟨fun a => ?_, Or.inl rfl⟩
    rw [e]
    fin_cases a <;> simp [S1x1x1024, S20x1x2048] <;> omega

end Cert.KernelIdeal.OkOfPre

end
-- ==== Proof.KFinal.lean ====
/-
  From blocks to the array. Every grid point writes its output block back; point `n`'s block is rows
  `512·(n mod 4) …` by output features `1024·(n / 4 mod 2) …` of sample `n / 8`, and by the induction every entry it writes is
  the specification's value at that place. The 128 blocks tile the `[16, 2048, 2048]` result (entry `(b, r, o)` lies in the
  block of point `8·b + 4·(o / 1024) + r / 512`), so after the run the result array is the specification.
-/
import proofs.«430369_j6116033429683_3_alg».proof.Proof.KInvariant
import proofs.«430369_j6116033429683_3_alg».proof.Proof.OkIdeal

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.DomainLinear

variable (m : (ℓ : Loc nD τ sig) → Buf (Elt Ideal) ℓ) (ρ : Dev nD → PrngReg)

/-- The result array the kernel leaves: the specification of the launched arrays (the table read on the one device). -/
abbrev Gk (c : Dev nD) : Buf (Elt Ideal) ((c : Thread nD τ).loc main_v2) :=
  G (m ((c : Thread nD τ).loc main_arg0)) (tbl m 0) (m ((c : Thread nD τ).loc main_arg2)) (m ((c : Thread nD τ).loc main_arg3))

/-- An index of an output block is `(0, p, q)`. -/
theorem idx3_split (y : S1x512x1024.Idx) : ∃ (p : Fin 512) (q : Fin 1024), y = ix3 (0 : Fin 1) p q := by
  have hy : (y 0).val < 1 := (y 0).isLt
  refine ⟨y 1, y 2, ?_⟩
  funext a
  match a with
  | ⟨0, _⟩ => exact Fin.ext (by show (y 0).val = 0; omega)
  | ⟨1, _⟩ => rfl
  | ⟨2, _⟩ => rfl

/-- What point `t` writes back is block `t` of the specification. -/
theorem flushed_eq (hlt : ∀ x, (tbl m 0 x).toNat < 20) (hO : Ok m) (c : Dev nD) (t : Fin (cfgM m hO).N) :
    (dats m hO 0 c).flushed 3 t = (((cfgM m hO).win 3).blk t).view.read (Elt Ideal) (Gk m c) := by
  have hN : t.val < 128 := lt_of_lt_of_eq t.isLt (show (cfgM m hO).N = 128 from N_0)
  show ((cfgM m hO).win 3).cut (grid0.coords t) ((dats m hO 0 c).after 3 t) = _
  refine (congrArg (((cfgM m hO).win 3).cut (grid0.coords t)) (after0_3 m hO c t)).trans ?_
  funext y
  obtain ⟨p, q, rfl⟩ := idx3_split y
  show (outsAt0 m hO c t.val t.isLt).1 (ix3 (0 : Fin 1) p q)
    = Gk m c ((((cfgM m hO).win 3).blk t).view.emb (ix3 (0 : Fin 1) p q))
  have hb : (⟨t.val / 8, by omega⟩ : Fin 16).val = t.val / 8 := rfl
  have hr : (⟨t.val % 4 * 512 + p.val, by have := p.isLt; omega⟩ : Fin 2048).val = t.val % 4 * 512 + p.val := rfl
  have ho : (⟨t.val / 4 % 2 * 1024 + q.val, by have := q.isLt; omega⟩ : Fin 2048).val = t.val / 4 % 2 * 1024 + q.val := rfl
  refine Eq.trans ?_ (congrArg (Gk m c) (oblk_emb m hO t _ _ _ p q hb hr ho).symm)
  exact out_val m hlt hO c t _ _ _ p q hb hr ho

-- the block's rectangle is a rectangle of the result's shape only after the window's array is unfolded
set_option backward.isDefEq.respectTransparency.types false in
/-- Every entry of the result lies in some point's block. -/
theorem cover (hO : Ok m) (c : Dev nD) (i : S16x2048x2048.Idx) :
    ∃ t : Fin (cfgM m hO).N, ((cfgM m hO).win 3).flush t = true ∧ i ∈ (((cfgM m hO).win 3).blk t).view.set := by
  have h0 : (i 0).val < 16 := (i 0).isLt
  have h1 : (i 1).val < 2048 := (i 1).isLt
  have h2 : (i 2).val < 2048 := (i 2).isLt
  have hN : (cfgM m hO).N = 128 := N_0
  refine ⟨⟨(i 0).val * 8 + (i 2).val / 1024 * 4 + (i 1).val / 512, by rw [hN]; omega⟩, flush0_3 (adm m hO) _, ?_⟩
  generalize ht : (⟨(i 0).val * 8 + (i 2).val / 1024 * 4 + (i 1).val / 512, _⟩ : Fin (cfgM m hO).N) = t
  have htv : t.val = (i 0).val * 8 + (i 2).val / 1024 * 4 + (i 1).val / 512 := by rw [← ht]
  obtain ⟨c0, c1, c2⟩ := coords_val t
  show i ∈ ((View.whole main_v2).slice (((cfgM m hO).win 3).rect t)).set
  rw [View.set_slice_whole]
  refine Rect.mem_set_unit.mpr ?_
  intro a
  match a with
  | ⟨0, _⟩ =>
    show (BitVec.ofNat 32 ((grid0.coords t) 0).val).toNat * 1 ≤ (i 0).val
      ∧ (i 0).val < (BitVec.ofNat 32 ((grid0.coords t) 0).val).toNat * 1 + 1
    rw [BitVec.toNat_ofNat, c0, htv]; omega
  | ⟨1, _⟩ =>
    show (BitVec.ofNat 32 ((grid0.coords t) 2).val).toNat * 512 ≤ (i 1).val
      ∧ (i 1).val < (BitVec.ofNat 32 ((grid0.coords t) 2).val).toNat * 512 + 512
    rw [BitVec.toNat_ofNat, c2, htv]; omega
  | ⟨2, _⟩ =>
    show (BitVec.ofNat 32 ((grid0.coords t) 1).val).toNat * 1024 ≤ (i 2).val
      ∧ (i 2).val < (BitVec.ofNat 32 ((grid0.coords t) 1).val).toNat * 1024 + 1024
    rw [BitVec.toNat_ofNat, c1, htv]; omega

/-- So the result array ends holding the specification. -/
theorem final (hlt : ∀ x, (tbl m 0 x).toNat < 20) (hO : Ok m) (c : Dev nD) :
    (dats m hO 0 c).arrAt 3 (cfgM m hO).N = Gk m c :=
  (dats m hO 0 c).arrAt_eq_of_cover 3 (Gk m c) (fun t _ => flushed_eq m hlt hO c t) (cover m hO c)

/-- The run, read: under the precondition the result array ends at the specification of the launched arrays, and the four
    argument arrays end unchanged. -/
theorem run [Cert.Pre_finite_inputs.Facts] (h : OkOfPre.Pre m) :
    θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hO : Ok m := OkOfPre.ok_of_pre m h
  have hlt : ∀ x, (tbl m 0 x).toNat < 20 := OkOfPre.tbl_lt m h
  refine (θ_run defs _ _).mono (fun r hr c => ?_) (run_main m ρ hO)
  obtain rfl : c = 0 := Subsingleton.elim _ _
  refine ⟨?_, ?_, ?_, ?_, ?_⟩
  · refine (((hr 0).1 3).trans (final m hlt hO 0)).trans ?_
    show G _ (tbl m 0) _ _ = G _ _ _ _
    rw [tbl_eq]
  · exact ((hr 0).1 0).trans (((dats m hO 0 0).arrAt_in 0 rfl _).trans ((A_eq m hO 0 0).trans (V_main_arg0 m 0)))
  · exact ((hr 0).2 main_arg1 (by decide : main_arg1 ∈ Pipeline.restRefs sig spec0)).trans (V_main_arg1 m 0)
  · exact ((hr 0).2 main_arg2 (by decide : main_arg2 ∈ Pipeline.restRefs sig spec0)).trans (V_main_arg2 m 0)
  · exact ((hr 0).2 main_arg3 (by decide : main_arg3 ∈ Pipeline.restRefs sig spec0)).trans (V_main_arg3 m 0)

end Cert.KernelIdeal.KValue

end
-- ==== Proof.LibGatherRows.lean ====
/-
  A general lemma: jnp's `table[idx]` over a RANK-2 table `[N, M]` with a vector of `n` row numbers lowers to a
  `stablehlo.gather` whose start indices are the `[n, 1]` column of row numbers, whose operand axis 0 is collapsed and
  start-indexed, whose axis 1 is the one offset axis (the whole row is the slice), with the index vector on axis 1.
  Read at `(p, q)` it is the table at row `idx[p, 0]` — read signed and clamped into `[0, N − 1]`, StableHLO's clamp — and
  column `q`.
-/
import Idealize.ShloMosaic.Lib.ValueIdx

noncomputable section

namespace Idealize.ShloMosaic.GatherRows

open Idealize.ShloMosaic Idealize.ShloMosaic.ValueIdx

variable {α : Type}

/-- The dimension numbers of the row gather `table[idx]`, `table : [N, M]`, `idx : [n, 1]`, result `[n, M]`. -/
abbrev rowDims (N M n : Nat)
    (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

/-- THE ROW GATHER READ AT `(p, q)`: row `idx[p, 0]` (signed, clamped into the table) of the table, at column `q`. -/
theorem gather_rows_apply {N M n w : Nat} (hN : 0 < N)
    (wf : GatherDims.WF ⟨2, ![N, M]⟩ ⟨2, ![n, 1]⟩ ⟨2, ![n, M]⟩ [1] [0] [] [0] [] 1 ![1, M])
    (x : (⟨2, ![N, M]⟩ : Shape).Idx → α) (idx : IVec ⟨2, ![n, 1]⟩ w) (p : Fin n) (q : Fin M) :
    Host.gather (rowDims N M n wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N M n wf).start (ix2 p q) idx 0 + (rowDims N M n wf).batchCoord (ix2 p q) 0
        + (rowDims N M n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M n wf).startIndexMap from List.mem_singleton.mpr rfl)]
    have hsi : (rowDims N M n wf).siIdx (ix2 p q) ⟨List.idxOf (0 : Fin 2) (rowDims N M n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N M n wf).start (ix2 p q) idx 1 + (rowDims N M n wf).batchCoord (ix2 p q) 1
        + (rowDims N M n wf).offCoord (ix2 p q) 1 = q.val
    rw [GatherDims.batchCoord_eq_zero _ _ _ List.not_mem_nil]
    unfold GatherDims.start
    rw [dif_neg (show (1 : Fin 2) ∉ (rowDims N M n wf).startIndexMap from
      fun h => (by decide : (1 : Fin 2) ≠ 0) (List.mem_singleton.mp h))]
    simp only [Nat.add_zero, Nat.zero_add]
    rfl

end Idealize.ShloMosaic.GatherRows

end
-- ==== Proof.RefValue.lean ====
/-
  The reference program's result, read index by index, is the specification `G`.

  At `(b, t, o)` the last stage is a sum plus a bias term. The sum runs over `k` of `x[b, t, k]` times the reshaped
  gathered weight at `(b, k, o)`; the reshape reads the `[16, 4194304]` gather at `(b, k·2048 + o)`, and the gather
  reads the weight table at the row its index word selects. The bias term is the `[16, 2048]` gather at `(b, o)`,
  broadcast along `t`. In both gathers the index word at sample `b` is `d[b]` if it is non-negative and `d[b] + 20`
  otherwise, which is `wrap (d[b])`; the gather clamps it into `[0, 19]`, which is `row (d[b])`.
-/
import proofs.«430369_j6116033429683_3_alg».proof.Proof.Gen.ReferenceIdeal.Read
import proofs.«430369_j6116033429683_3_alg».proof.Proof.Spec
import proofs.«430369_j6116033429683_3_alg».proof.Proof.LibGatherRows

noncomputable section

open scoped BigOperators

namespace Cert.ReferenceIdeal.RefValue

open Cert.ReferenceIdeal Cert.ReferenceIdeal.Gen Cert.ReferenceIdeal.Read Cert.DomainLinear
open Idealize.ShloMosaic Idealize.ShloMosaic.ValueIdx Idealize.ShloMosaic.GatherRows

/-! ## The index word -/

/-- The first index word at sample `b`: `d[b] < 0 ? d[b] + 20 : d[b]`. -/
theorem word4_at (x1 : IVec S16 32) (b : Fin 16) :
    val_main_v4 (F := Ideal) x1 (ix1 b) = wrap (x1 (ix1 b)) := by
  rw [val_main_v4_apply, val_main_v1_apply, val_main_v3_apply, val_main_v0_apply, val_main_v2_apply,
    val_main_c_apply, val_main_c_0_apply]
  rfl

/-- The second index word at sample `b`: the same word. -/
theorem word12_at (x1 : IVec S16 32) (b : Fin 16) :
    val_main_v12 (F := Ideal) x1 (ix1 b) = wrap (x1 (ix1 b)) := by
  rw [val_main_v12_apply, val_main_v9_apply, val_main_v11_apply, val_main_v8_apply, val_main_v10_apply,
    val_main_c_1_apply, val_main_c_2_apply]
  rfl

/-- The column of first index words, at `(b, 0)`. -/
theorem col5_at (x1 : IVec S16 32) (b : Fin 16) :
    val_main_v5 (F := Ideal) x1 (ix2 b (0 : Fin 1)) = wrap (x1 (ix1 b)) := by
  have e : idx_main_v5 (ix2 b (0 : Fin 1)) = ix1 b :=
    funext fun a => Fin.ext (by match a with | ⟨0, _⟩ => rfl)
  rw [val_main_v5_apply, e, word4_at]

/-- The column of second index words, at `(b, 0)`. -/
theorem col13_at (x1 : IVec S16 32) (b : Fin 16) :
    val_main_v13 (F := Ideal) x1 (ix2 b (0 : Fin 1)) = wrap (x1 (ix1 b)) := by
  have e : idx_main_v13 (ix2 b (0 : Fin 1)) = ix1 b :=
    funext fun a => Fin.ext (by match a with | ⟨0, _⟩ => rfl)
  rw [val_main_v13_apply, e, word12_at]

/-! ## The two gathers -/

/-- The gathered weight rows at `(b, q)`: the weight table at row `row (d[b])`, column `q`. -/
theorem gather6_at (x1 : IVec S16 32) (x2 : FVec Ideal S20x4194304 .f32) (b : Fin 16) (q : Fin 4194304) :
    val_main_v6 (F := Ideal) x1 x2 (ix2 b q) = x2 (ix2 (row (x1 (ix1 b))) q) := by
  unfold val_main_v6
  show Host.gather (rowDims 20 4194304 16 _) x2 (val_main_v5 (F := Ideal) x1) (ix2 b q) = _
  rw [gather_rows_apply (by decide)]
  refine congrArg (fun r : Fin 20 => x2 (ix2 r q)) (Fin.ext ?_)
  show min (val_main_v5 (F := Ideal) x1 (ix2 b (0 : Fin 1))).toInt.toNat (20 - 1)
    = min (wrap (x1 (ix1 b))).toInt.toNat 19
  rw [col5_at]

/-- The gathered bias rows at `(b, o)`: the bias table at row `row (d[b])`, column `o`. -/
theorem gather14_at (x1 : IVec S16 32) (x3 : FVec Ideal S20x2048 .f32) (b : Fin 16) (o : Fin 2048) :
    val_main_v14 (F := Ideal) x1 x3 (ix2 b o) = x3 (ix2 (row (x1 (ix1 b))) o) := by
  unfold val_main_v14
  show Host.gather (rowDims 20 2048 16 _) x3 (val_main_v13 (F := Ideal) x1) (ix2 b o) = _
  rw [gather_rows_apply (by decide)]
  refine congrArg (fun r : Fin 20 => x3 (ix2 r o)) (Fin.ext ?_)
  show min (val_main_v13 (F := Ideal) x1 (ix2 b (0 : Fin 1))).toInt.toNat (20 - 1)
    = min (wrap (x1 (ix1 b))).toInt.toNat 19
  rw [col13_at]

/-! ## The weight matrix and the bias, at an index -/

/-- The left operand of the product is read at `(b, t, k)`. -/
theorem lidx_at (b : Fin 16) (t o k : Fin 2048) : lidx_main_v15 (ix3 b t o) k = ix3 b t k :=
  funext fun a => Fin.ext (by match a with | ⟨0, _⟩ => rfl | ⟨1, _⟩ => rfl | ⟨2, _⟩ => rfl)

/-- The reshape reads the flat row at `k·2048 + o`: `(b·2048 + k)·2048 + o` splits as `b · 4194304 + (k·2048 + o)`. -/
theorem ridx_at (b : Fin 16) (t o k : Fin 2048) :
    idx_main_v7 (ridx_main_v15 (ix3 b t o) k) = ix2 b (flat k o) :=
  funext fun a => Fin.ext (by
    have hb := b.isLt; have hk := k.isLt; have ho := o.isLt
    match a with
    | ⟨0, _⟩ =>
      show ((b.val * 2048 + k.val) * 2048 + o.val) / 4194304 = b.val
      omega
    | ⟨1, _⟩ =>
      show ((b.val * 2048 + k.val) * 2048 + o.val) % 4194304 = k.val * 2048 + o.val
      omega)

/-- The reshaped weight at `(b, k, o)`: entry `(k, o)` of the matrix of domain `d[b]`. -/
theorem weight_at (x1 : IVec S16 32) (x2 : FVec Ideal S20x4194304 .f32) (b : Fin 16) (t o k : Fin 2048) :
    val_main_v7 (F := Ideal) x1 x2 (ridx_main_v15 (ix3 b t o) k) = x2 (ix2 (row (x1 (ix1 b))) (flat k o)) := by
  rw [val_main_v7_apply, ridx_at, gather6_at]

/-- The broadcast bias reads the gathered bias at `(b, o)`. -/
theorem bidx_at (b : Fin 16) (t o : Fin 2048) : idx_main_v16 (idx_main_v17 (ix3 b t o)) = ix2 b o :=
  funext fun a => Fin.ext (by match a with | ⟨0, _⟩ => rfl | ⟨1, _⟩ => rfl)

/-- The broadcast bias at `(b, t, o)`: entry `o` of the bias vector of domain `d[b]`. -/
theorem bias_at (x1 : IVec S16 32) (x3 : FVec Ideal S20x2048 .f32) (b : Fin 16) (t o : Fin 2048) :
    val_main_v17 (F := Ideal) x1 x3 (ix3 b t o) = x3 (ix2 (row (x1 (ix1 b))) o) := by
  rw [val_main_v17_apply, val_main_v16_apply, bidx_at, gather14_at]

/-! ## The result -/

/-- The last stage at `(b, t, o)` is the specification's value there. -/
theorem ref_at (x0 : FVec Ideal S16x2048x2048 .f32) (x1 : IVec S16 32) (x2 : FVec Ideal S20x4194304 .f32)
    (x3 : FVec Ideal S20x2048 .f32) (b : Fin 16) (t o : Fin 2048) :
    val_main_v18 (F := Ideal) x0 x1 x2 x3 (ix3 b t o) = Gat x0 x1 x2 x3 b t o := by
  rw [val_main_v18_apply, val_main_v15_apply, bias_at]
  unfold Gat
  rw [Ideal.addf_def]
  congr 1
  refine Finset.sum_congr rfl fun k _ => ?_
  rw [lidx_at, weight_at]

/-- The reference program's result is the specification, for all argument arrays. -/
theorem ref_eq (x0 : FVec Ideal Cert.ReferenceIdeal.S16x2048x2048 .f32) (x1 : IVec Cert.ReferenceIdeal.S16 32) (x2 : FVec Ideal Cert.ReferenceIdeal.S20x4194304 .f32) (x3 : FVec Ideal Cert.ReferenceIdeal.S20x2048 .f32) : Cert.ReferenceIdeal.Read.val_main_v18 (F := Ideal) x0 x1 x2 x3 = Cert.DomainLinear.G x0 x1 x2 x3 := by
  funext i
  obtain ⟨b, t, o, rfl⟩ : ∃ (b : Fin 16) (t o : Fin 2048), i = ix3 b t o := ⟨i 0, i 1, i 2, eq_ix3 i⟩
  rw [G_apply]
  exact ref_at x0 x1 x2 x3 b t o

end Cert.ReferenceIdeal.RefValue

end
-- ==== Proof.lean ====
/-
  A per-sample linear layer with a domain-selected weight matrix: for `x : [16, 2048, 2048]`, a domain number `d[b]` per
  sample, a table of 20 flat weight matrices and a table of 20 bias rows,

      out[b, t, o] = Σ_k x[b, t, k] · W_{d[b]}[k, o] + bias_{d[b]}[o].

  The kernel walks a (sample, output tile, time tile) grid, time innermost; the domain number picks, through the index
  maps, which weight and bias blocks are staged; at the first time tile of each (sample, output tile) it converts the
  staged weight block into a scratch that the following three time tiles reuse. The reference gathers the 16 weight
  matrices and bias rows by domain and contracts. Over the extended reals both are the one function `G` of the four
  arguments (Spec): the format conversions are the identity, the matrix unit's product into a zero accumulator and the
  host's contraction are the same sum over `k`, and no law beyond that is used, so finiteness of the floats is never opened.
  The domain numbers are indices into a table of 20 rows: the precondition asks `0 ≤ d[b] < 20`, and that is what places
  every staged block inside its array (the frames' side condition) and makes the kernel's row the reference's row.
  The ideal pass rewrote nothing, so the kernel's idealization is the kernel's own text and `preserves` is `True`.
-/
import proofs.«430369_j6116033429683_3_alg».proof.Defs
import proofs.«430369_j6116033429683_3_alg».proof.Proof.Gen.Kernel
import proofs.«430369_j6116033429683_3_alg».proof.Proof.Gen.KernelIdeal
import proofs.«430369_j6116033429683_3_alg».proof.Proof.Gen.ReferenceIdeal
import proofs.«430369_j6116033429683_3_alg».proof.Proof.Gen.Pre_finite_inputs
import proofs.«430369_j6116033429683_3_alg».proof.Proof.OkKernel
import proofs.«430369_j6116033429683_3_alg».proof.Proof.KFinal
import proofs.«430369_j6116033429683_3_alg».proof.Proof.RefValue
import Idealize.ShloMosaic.Adequacy
import Idealize.ShloMosaic.Init

noncomputable section

namespace Cert.Proof

open Idealize.ShloMosaic Idealize.SL.Sem Cert.DomainLinear

/-- The word-level kernel runs: every table-indexed block is inside its array because every domain number is below 20. -/
theorem frame_k : Cert.frame_Kernel := fun m ρ h => Cert.Kernel.Gen.frame m ρ (Cert.Kernel.OkOfPre.ok_of_pre m h)

/-- The idealized kernel runs, for the same reason. -/
theorem frame_ki : Cert.frame_KernelIdeal := fun m ρ h =>
  Cert.KernelIdeal.Gen.frame m ρ (Cert.KernelIdeal.OkOfPre.ok_of_pre m h)

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the specification `G` of arguments that agree. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ hpre, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _).trans ?_
  rw [Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
